-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1000 : Shape := ⟨2, ![32, 1000]⟩
abbrev S32x1024x1024 : Shape := ⟨3, ![32, 1024, 1024]⟩
abbrev S_ : Shape := ⟨0, ![]⟩

class Facts : Prop where
  bcast_S_S32x1000 : S_.BroadcastsInDim S32x1000 (![] : Fin 0 → Fin S32x1000.rank)
  reducesTo_S32x1000_S_d0_1 : S32x1000.ReducesTo [0, 1] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts]

def fn {F : FTy → Type} [FloatOps F] (main_arg0 : FVec F S32x1000 .f32) (main_arg1 : FVec F S32x1024x1024 .f32) : IVec S_ 1 :=
  let main_v0 : FVec F S32x1000 .f32 := Host.absf main_arg0
  let main_cst : FVec F S_ .f32 := constant S_ .f32 0x7F800000#32
  let main_v1 : FVec F S32x1000 .f32 := broadcastInDim S32x1000 ![] bcast_S_S32x1000 main_cst
  let main_v2 : IVec S32x1000 1 := cmpf .olt main_v0 main_v1
  let main_c : IVec S_ 1 := constantI S_ 1 1#1
  let main_v3 : IVec S_ 1 := (fun x v => Host.reduce IntOp.andi x v reducesTo_S32x1000_S_d0_1 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  main_v8
-- ==== Kernel.lean ====
abbrev S32x1000 : Shape := ⟨2, ![32, 1000]⟩
abbrev S32x1024x1024 : Shape := ⟨3, ![32, 1024, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32x1000, .f32⟩
  | .hbm, ⟨1, _⟩ => ⟨S32x1024x1024, .f32⟩
  | .hbm, ⟨2, _⟩ => ⟨S32x1000, .f32⟩
  | .hbm, ⟨3, _⟩ => ⟨S32x1024x1024, .f32⟩
  | .local _ .vmem, ⟨0, _⟩ => ⟨S32x1000, .f32⟩
  | .local _ .vmem, ⟨1, _⟩ => ⟨S32x1000, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | _, _ => ⟨S32x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S32x1000_S32x1000_0_0 : ∀ a, (![0, 0] : Fin 2 → Nat) a + S32x1000.size a ≤ S32x1000.size a
  h_S32x1000 : 0 < S32x1000.numel
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  rotates_S1024x1024_d1 : S1024x1024.Rotates 1 none
  iota_S1024x1024_d1_w32 : S1024x1024.Iotas .tc 32 [1]
  rotates_S1024x1024_d0 : S1024x1024.Rotates 0 none
  iota_S1024x1024_d0_w32 : S1024x1024.Iotas .tc 32 [0]
  shapeCasts_S1024x1024_S1x1024x1024 : S1024x1024.ShapeCasts S1x1024x1024
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1000.size a ≤ S32x1000.size a
  hwx0_0 : ∀ i : grid0.Coords, EltTy.bits .f32 = 32 ∨ (Rect.block (s := S32x1000) S32x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1000.size a ≤ S32x1000.size a
  hwx0_1 : ∀ i : grid0.Coords, EltTy.bits .f32 = 32 ∨ (Rect.block (s := S32x1000) S32x1000.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S32x1024x1024.size a
  hwx1_0 : ∀ i : grid1.Coords, EltTy.bits .f32 = 32 ∨ (Rect.block (s := S32x1024x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S32x1024x1024.size a
  hwx1_1 : ∀ i : grid1.Coords, EltTy.bits .f32 = 32 ∨ (Rect.block (s := S32x1024x1024) S1x1024x1024.size (cc1_transform_1 i) (hinb1_1 i)).WholeWords (EltTy.packing .f32)

variable [Facts₀]

abbrev win0_0 : Pipeline.Window sig grid0 :=
  Pipeline.Window.ofSpec (Memref.whole main_arg0) S32x1000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x1000.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S32x1000 : Shape := ⟨2, ![32, 1000]⟩
abbrev S32x1024x1024 : Shape := ⟨3, ![32, 1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32x1000, .f32⟩
  | .hbm, ⟨1, _⟩ => ⟨S32x1024x1024, .f32⟩
  | .hbm, ⟨2, _⟩ => ⟨S_, .f32⟩
  | .hbm, ⟨3, _⟩ => ⟨S32x1000, .f32⟩
  | .hbm, ⟨4, _⟩ => ⟨S32x1000, .i1⟩
  | .hbm, ⟨5, _⟩ => ⟨S_, .f32⟩
  | .hbm, ⟨6, _⟩ => ⟨S32x1000, .f32⟩
  | .hbm, ⟨7, _⟩ => ⟨S32x1000, .f32⟩
  | .hbm, ⟨8, _⟩ => ⟨S_, .f32⟩
  | .hbm, ⟨9, _⟩ => ⟨S32x1024x1024, .f32⟩
  | .hbm, ⟨10, _⟩ => ⟨S32x1024x1024, .i1⟩
  | .hbm, ⟨11, _⟩ => ⟨S_, .f32⟩
  | .hbm, ⟨12, _⟩ => ⟨S32x1024x1024, .f32⟩
  | .hbm, ⟨13, _⟩ => ⟨S32x1024x1024, .f32⟩
  | .hbm, ⟨14, _⟩ => ⟨S_, .f32⟩
  | .hbm, ⟨15, _⟩ => ⟨S_, .f32⟩
  | .hbm, ⟨16, _⟩ => ⟨S32x1024x1024, .f32⟩
  | .hbm, ⟨17, _⟩ => ⟨S_, .f32⟩
  | .hbm, ⟨18, _⟩ => ⟨S_, .f32⟩
  | .hbm, ⟨19, _⟩ => ⟨S32x1024x1024, .f32⟩
  | _, _ => ⟨S32x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_call1_v0 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]

class Facts₀ : Prop where
  bcast_S_S32x1000 : S_.BroadcastsInDim S32x1000 (![] : Fin 0 → Fin S32x1000.rank)
  bcast_S_S32x1024x1024 : S_.BroadcastsInDim S32x1024x1024 (![] : Fin 0 → Fin S32x1024x1024.rank)
  bcast_S_S_ : S_.BroadcastsInDim S_ (![] : Fin 0 → Fin S_.rank)
  reduceWindows_S32x1024x1024_S32x1024x1024_w1s1p0_0_w4s1p2_1_w4s1p2_1 : S32x1024x1024.ReduceWindows (![1, 4, 4] : Fin 3 → Nat) ![1, 1, 1] ![0, 2, 2] ![0, 1, 1] S32x1024x1024
  h_S_ : 0 < S_.numel
  reduceWindows_S32x1024x1024_S32x1024x1024_w1s1p0_0_w4s1p1_2_w4s1p1_2 : S32x1024x1024.ReduceWindows (![1, 4, 4] : Fin 3 → Nat) ![1, 1, 1] ![0, 1, 1] ![0, 2, 2] S32x1024x1024

variable [Facts₀]

class Facts : Prop extends Facts₀ where

variable [Facts]
-- ==== Proof.LibWindowFold.lean ====
/-
  A window reduction read through a universal property.

  A binary operation `f` with unit `v` is the MEET of a relation `R` when `R z (f a b)` says `R z a` and
  `R z b`, `R z v` always holds, and an element is determined by the set of `z` related to it. The minimum of a
  linear order with a top is the meet of `z ≤ ·`, the maximum with a bottom the meet of `· ≤ z`. A left fold of
  such an operation from its unit is related to `z` exactly when every folded element is, whatever the order of
  the fold; so a `stablehlo.reduce_window` with unit strides whose padding value is the unit is related to `z`
  exactly when every operand element inside the window is: padding positions say nothing.
-/
import Idealize.ShloMosaic.PureOps.Contract
import Idealize.ShloMosaic.PureOps.Ideal

namespace Idealize.ShloMosaic.WindowFold

/-- `f` with unit `v` is the meet of the relation `R`. -/
structure Meet {α : Type} (R : α → α → Prop) (f : α → α → α) (v : α) : Prop where
  split : ∀ z a b, R z (f a b) ↔ R z a ∧ R z b
  unit : ∀ z, R z v
  ext : ∀ a b, (∀ z, R z a ↔ R z b) → a = b

/-- The minimum, with the top for unit, is the meet of "below". -/
theorem meet_min {α : Type} [LinearOrder α] [OrderTop α] : Meet (fun z a : α => z ≤ a) min ⊤ :=
  ⟨fun _ _ _ => le_min_iff, fun _ => le_top, fun a b h => le_antisymm ((h a).1 le_rfl) ((h b).2 le_rfl)⟩

/-- The maximum, with the bottom for unit, is the meet of "above". -/
theorem meet_max {α : Type} [LinearOrder α] [OrderBot α] : Meet (fun z a : α => a ≤ z) max ⊥ :=
  ⟨fun _ _ _ => max_le_iff, fun _ => bot_le, fun a b h => le_antisymm ((h b).2 le_rfl) ((h a).1 le_rfl)⟩

variable {α : Type} {R : α → α → Prop} {f : α → α → α} {v : α}

/-- A choice between an element and the unit is related to `z` exactly when the element is, if chosen. -/
theorem Meet.ite (M : Meet R f v) (z : α) (p : Prop) [Decidable p] (a : α) :
    R z (if p then a else v) ↔ (p → R z a) := by
  by_cases hp : p
  · rw [if_pos hp]; exact ⟨fun h _ => h, fun h => h hp⟩
  · rw [if_neg hp]; exact ⟨fun _ h => absurd h hp, fun _ => M.unit z⟩

/-- A left fold of a meet is related to `z` exactly when its start and every folded element are. -/
theorem Meet.foldl (M : Meet R f v) {ι : Type} (g : ι → α) (z : α) :
    ∀ (l : List ι) (v0 : α), R z (l.foldl (fun r n => f r (g n)) v0) ↔ R z v0 ∧ ∀ n ∈ l, R z (g n)
  | [], v0 => by simp
  | n :: l, v0 => by
    rw [List.foldl_cons, M.foldl g z l, M.split]
    constructor
    · rintro ⟨⟨h0, hn⟩, hl⟩
      exact ⟨h0, fun k hk => by
        rcases List.mem_cons.mp hk with rfl | hk
        · exact hn
        · exact hl k hk⟩
    · rintro ⟨h0, hl⟩
      exact ⟨⟨h0, hl n (List.mem_cons_self ..)⟩, fun k hk => hl k (List.mem_cons_of_mem _ hk)⟩

/-- A window reduction by a meet, with unit strides and the unit for padding value, is related to `z` at the result
    index `j` exactly when every operand element whose index lies in `j`'s window is: on each axis the operand
    coordinate `k`, moved up by the low padding, is at or after `j`'s and fewer than the window's extent after it. -/
theorem reduceWindow_iff (M : Meet R f v) {s t u : Shape} (window strides lo hi : Fin s.rank → Nat)
    (x : s.Idx → α) (init : u.Idx → α) (h : s.ReduceWindows window strides lo hi t) (hu : 0 < u.numel)
    (hinit : init (Shape.Idx.first hu) = v) (hs : ∀ a, strides a = 1) (j : t.Idx) (z : α) :
    R z (Host.reduceWindow f window strides lo hi x init h hu j)
      ↔ ∀ k : s.Idx, (∀ a : Fin s.rank, (j (a.cast h.1.symm)).val ≤ (k a).val + lo a
          ∧ (k a).val + lo a < (j (a.cast h.1.symm)).val + window a) → R z (x k) := by
  unfold Host.reduceWindow
  dsimp only
  rw [hinit, M.foldl]
  constructor
  · rintro ⟨-, H⟩ k hk
    have H' : ∀ q : (⟨s.rank, window⟩ : Shape).Idx,
        R z (if hin : ∀ a, lo a ≤ (j (a.cast h.1.symm)).val * strides a + (q a).val
            ∧ (j (a.cast h.1.symm)).val * strides a + (q a).val - lo a < s.size a
          then x (fun a => ⟨(j (a.cast h.1.symm)).val * strides a + (q a).val - lo a, (hin a).2⟩) else v) := fun q => by
      have := H ((⟨s.rank, window⟩ : Shape).rowMajor q) (List.mem_finRange _)
      simpa only [Equiv.symm_apply_apply] using this
    have hn := H' (fun a => ⟨(k a).val + lo a - (j (a.cast h.1.symm)).val, by
      have := hk a; show _ < window a; omega⟩)
    have hin : ∀ a, lo a ≤ (j (a.cast h.1.symm)).val * strides a + ((k a).val + lo a - (j (a.cast h.1.symm)).val)
        ∧ (j (a.cast h.1.symm)).val * strides a + ((k a).val + lo a - (j (a.cast h.1.symm)).val) - lo a < s.size a := fun a => by
      have := hk a; have := (k a).isLt; rw [hs a]
      omega
    rw [dif_pos hin] at hn
    have hk' : (fun a => (⟨(j (a.cast h.1.symm)).val * strides a + ((k a).val + lo a - (j (a.cast h.1.symm)).val) - lo a, (hin a).2⟩ : Fin (s.size a))) = k :=
      funext fun a => Fin.ext (by
        have := hk a; show _ * strides a + _ - lo a = _; rw [hs a]; omega)
    rw [hk'] at hn
    exact hn
  · intro H
    refine ⟨M.unit z, fun n _ => ?_⟩
    by_cases hin : ∀ a, lo a ≤ (j (a.cast h.1.symm)).val * strides a + ((⟨s.rank, window⟩ : Shape).rowMajor.symm n a).val
        ∧ (j (a.cast h.1.symm)).val * strides a + ((⟨s.rank, window⟩ : Shape).rowMajor.symm n a).val - lo a < s.size a
    · rw [dif_pos hin]
      refine H _ fun a => ?_
      have h1 := hin a
      have h2 : ((⟨s.rank, window⟩ : Shape).rowMajor.symm n a).val < window a := ((⟨s.rank, window⟩ : Shape).rowMajor.symm n a).isLt
      rw [hs a] at h1
      show _ ≤ (_ * strides a + _ - lo a) + lo a ∧ (_ * strides a + _ - lo a) + lo a < _
      rw [hs a]
      omega
    · rw [dif_neg hin]; exact M.unit z

end Idealize.ShloMosaic.WindowFold
-- ==== Proof.Taps.lean ====
/-
  The separable four-tap window passes of a 1024 × 1024 image, read at an index.

  A tap is the image shifted along one axis with the positions shifted in from outside replaced by a padding
  value: a rotation by `s` kept where the coordinate is at least `s` (the neighbour `s` places before), or a
  rotation by `n = 1024 - o` kept where the coordinate is below `n` (the neighbour `o` places after). Where the
  tap is kept the rotation does not wrap, so the tap at (r, c) is the image at the shifted position when that
  position exists, and the padding value otherwise. A pass combines four taps by a meet whose unit is the padding
  value, so it is related to `z` exactly when the image is at each of the four positions that exist; two passes,
  one along each axis, give the 4 × 4 window.
-/
import proofs.«136369_j90984587199189_1_alg».proof.Proof.LibWindowFold
import Idealize.ShloMosaic.Lib.KernelVsHost
import Idealize.ShloMosaic.Lib.Pipeline.Value
import Idealize.ShloMosaic.Lib.StableHlo.Predicate
import Idealize.ShloMosaic.Lib.ValueIdx

namespace Cert.Taps

open Idealize.ShloMosaic Idealize.ShloMosaic.ValueIdx Idealize.ShloMosaic.WindowFold

/-- The image's shape. -/
abbrev Img : Shape := ⟨2, ![1024, 1024]⟩

section Defs
variable {α : Type}

/-- The neighbour `s` columns before, `pad` in the first `s` columns. -/
def tapBackCol (pad : α) (s : BitVec 32) (g : Img.Idx → α) (hr : Img.Rotates 1 none) (hi : Img.Iotas .tc 32 [1]) : Img.Idx → α :=
  select (cmpi .sge (iota .tc Img 32 [1] hi) (broadcast Img s)) (dynamicRotate 1 s none g hr) (broadcast Img pad)

/-- The neighbour `1024 - n` columns after, `pad` from column `n` on. -/
def tapFwdCol (pad : α) (n : BitVec 32) (g : Img.Idx → α) (hr : Img.Rotates 1 none) (hi : Img.Iotas .tc 32 [1]) : Img.Idx → α :=
  select (cmpi .slt (iota .tc Img 32 [1] hi) (broadcast Img n)) (dynamicRotate 1 n none g hr) (broadcast Img pad)

/-- The neighbour `s` rows before, `pad` in the first `s` rows. -/
def tapBackRow (pad : α) (s : BitVec 32) (g : Img.Idx → α) (hr : Img.Rotates 0 none) (hi : Img.Iotas .tc 32 [0]) : Img.Idx → α :=
  select (cmpi .sge (iota .tc Img 32 [0] hi) (broadcast Img s)) (dynamicRotate 0 s none g hr) (broadcast Img pad)

/-- The neighbour `1024 - n` rows after, `pad` from row `n` on. -/
def tapFwdRow (pad : α) (n : BitVec 32) (g : Img.Idx → α) (hr : Img.Rotates 0 none) (hi : Img.Iotas .tc 32 [0]) : Img.Idx → α :=
  select (cmpi .slt (iota .tc Img 32 [0] hi) (broadcast Img n)) (dynamicRotate 0 n none g hr) (broadcast Img pad)

variable (op : (Img.Idx → α) → (Img.Idx → α) → (Img.Idx → α)) (pad : α)

/-- Columns c-2 … c+1. -/
def erodeCols (g : Img.Idx → α) (hr : Img.Rotates 1 none) (hi : Img.Iotas .tc 32 [1]) : Img.Idx → α :=
  op (op (op (tapBackCol pad 2#32 g hr hi) (tapBackCol pad 1#32 g hr hi)) g) (tapFwdCol pad 1023#32 g hr hi)
/-- Rows r-2 … r+1. -/
def erodeRows (g : Img.Idx → α) (hr : Img.Rotates 0 none) (hi : Img.Iotas .tc 32 [0]) : Img.Idx → α :=
  op (op (op (tapBackRow pad 2#32 g hr hi) (tapBackRow pad 1#32 g hr hi)) g) (tapFwdRow pad 1023#32 g hr hi)
/-- Columns c-1 … c+2. -/
def dilateCols (g : Img.Idx → α) (hr : Img.Rotates 1 none) (hi : Img.Iotas .tc 32 [1]) : Img.Idx → α :=
  op (op (op (tapBackCol pad 1#32 g hr hi) g) (tapFwdCol pad 1023#32 g hr hi)) (tapFwdCol pad 1022#32 g hr hi)
/-- Rows r-1 … r+2. -/
def dilateRows (g : Img.Idx → α) (hr : Img.Rotates 0 none) (hi : Img.Iotas .tc 32 [0]) : Img.Idx → α :=
  op (op (op (tapBackRow pad 1#32 g hr hi) g) (tapFwdRow pad 1023#32 g hr hi)) (tapFwdRow pad 1022#32 g hr hi)

end Defs

section Read
variable {α : Type} {R : α → α → Prop} {f : α → α → α} {v : α} (M : Meet R f v)

theorem toNat_ofNat_small (s : Nat) (hs : s < 1024) : (BitVec.ofNat 32 s).toNat = s := by
  rw [BitVec.toNat_ofNat]; exact Nat.mod_eq_of_lt (by omega)

/-- Whether a word comparison of a coordinate with a small constant holds. -/
theorem sge_small (c s : Nat) (hc : c < 1024) (hs : s < 1024) :
    IntOp.cmpi .sge (BitVec.ofNat 32 c) (BitVec.ofNat 32 s) = 1 ↔ s ≤ c := by
  have := StableHlo.Predicate.sge_iff_toNat (a := BitVec.ofNat 32 c) (b := BitVec.ofNat 32 s)
    (by rw [toNat_ofNat_small c hc]; omega) (by rw [toNat_ofNat_small s hs]; omega)
  rw [toNat_ofNat_small c hc, toNat_ofNat_small s hs] at this
  exact this

theorem slt_small (c n : Nat) (hc : c < 1024) (hn : n < 1024) :
    IntOp.cmpi .slt (BitVec.ofNat 32 c) (BitVec.ofNat 32 n) = 1 ↔ c < n := by
  have := StableHlo.Predicate.slt_iff_toNat (a := BitVec.ofNat 32 c) (b := BitVec.ofNat 32 n)
    (by rw [toNat_ofNat_small c hc]; omega) (by rw [toNat_ofNat_small n hn]; omega)
  rw [toNat_ofNat_small c hc, toNat_ofNat_small n hn] at this
  exact this

include M

/-- The tap `s` columns back is related to `z` iff the image at column `c - s` is, when there is such a column. -/
theorem tapBackCol_iff (pad : α) (hpad : pad = v) (s : Nat) (hs : s < 1024) (g : Img.Idx → α) (hr : Img.Rotates 1 none)
    (hi : Img.Iotas .tc 32 [1]) (r c : Fin 1024) (z : α) :
    R z (tapBackCol pad (BitVec.ofNat 32 s) g hr hi (ix2 r c)) ↔ ∀ c' : Fin 1024, c'.val + s = c.val → R z (g (ix2 r c')) := by
  subst hpad
  show R z (Scalar.select (IntOp.cmpi .sge (iota .tc Img 32 [1] hi (ix2 r c)) (BitVec.ofNat 32 s))
    (dynamicRotate 1 (BitVec.ofNat 32 s) none g hr (ix2 r c)) pad) ↔ _
  rw [iota_single_apply]
  show R z (if IntOp.cmpi .sge (BitVec.ofNat 32 c.val) (BitVec.ofNat 32 s) = 1 then _ else pad) ↔ _
  by_cases h : s ≤ c.val
  · rw [if_pos ((sge_small c.val s c.isLt hs).2 h)]
    have hk := dynamicRotate_apply (1 : Fin Img.rank) (BitVec.ofNat 32 s) g hr (ix2 r c) (ix2 r ⟨c.val - s, by omega⟩)
      (fun b => match b with
        | ⟨0, _⟩ => rfl
        | ⟨1, _⟩ => by
          show c.val - s = (c.val + 1024 - (BitVec.ofNat 32 s).toNat % 1024) % 1024
          rw [toNat_ofNat_small s hs]; omega)
    rw [hk]
    constructor
    · intro h' c' hc'
      have : c' = ⟨c.val - s, by omega⟩ := Fin.ext (by show c'.val = c.val - s; omega)
      rw [this]; exact h'
    · intro h'; exact h' _ (by show c.val - s + s = c.val; omega)
  · rw [if_neg (fun e => h ((sge_small c.val s c.isLt hs).1 e))]
    exact ⟨fun _ c' hc' => absurd hc' (by omega), fun _ => M.unit z⟩

/-- The tap `o` columns forward is related to `z` iff the image at column `c + o` is, when there is such a column. -/
theorem tapFwdCol_iff (pad : α) (hpad : pad = v) (n o : Nat) (hn : n + o = 1024) (ho : 0 < o) (g : Img.Idx → α)
    (hr : Img.Rotates 1 none) (hi : Img.Iotas .tc 32 [1]) (r c : Fin 1024) (z : α) :
    R z (tapFwdCol pad (BitVec.ofNat 32 n) g hr hi (ix2 r c)) ↔ ∀ c' : Fin 1024, c'.val = c.val + o → R z (g (ix2 r c')) := by
  subst hpad
  have hn' : n < 1024 := by omega
  show R z (Scalar.select (IntOp.cmpi .slt (iota .tc Img 32 [1] hi (ix2 r c)) (BitVec.ofNat 32 n))
    (dynamicRotate 1 (BitVec.ofNat 32 n) none g hr (ix2 r c)) pad) ↔ _
  rw [iota_single_apply]
  show R z (if IntOp.cmpi .slt (BitVec.ofNat 32 c.val) (BitVec.ofNat 32 n) = 1 then _ else pad) ↔ _
  by_cases h : c.val < n
  · rw [if_pos ((slt_small c.val n c.isLt hn').2 h)]
    have hk := dynamicRotate_apply (1 : Fin Img.rank) (BitVec.ofNat 32 n) g hr (ix2 r c) (ix2 r ⟨c.val + o, by omega⟩)
      (fun b => match b with
        | ⟨0, _⟩ => rfl
        | ⟨1, _⟩ => by
          show c.val + o = (c.val + 1024 - (BitVec.ofNat 32 n).toNat % 1024) % 1024
          rw [toNat_ofNat_small n hn']; omega)
    rw [hk]
    constructor
    · intro h' c' hc'
      have : c' = ⟨c.val + o, by omega⟩ := Fin.ext hc'
      rw [this]; exact h'
    · intro h'; exact h' _ rfl
  · rw [if_neg (fun e => h ((slt_small c.val n c.isLt hn').1 e))]
    exact ⟨fun _ c' hc' => absurd c'.isLt (by omega), fun _ => M.unit z⟩

/-- The tap `s` rows back. -/
theorem tapBackRow_iff (pad : α) (hpad : pad = v) (s : Nat) (hs : s < 1024) (g : Img.Idx → α) (hr : Img.Rotates 0 none)
    (hi : Img.Iotas .tc 32 [0]) (r c : Fin 1024) (z : α) :
    R z (tapBackRow pad (BitVec.ofNat 32 s) g hr hi (ix2 r c)) ↔ ∀ r' : Fin 1024, r'.val + s = r.val → R z (g (ix2 r' c)) := by
  subst hpad
  show R z (Scalar.select (IntOp.cmpi .sge (iota .tc Img 32 [0] hi (ix2 r c)) (BitVec.ofNat 32 s))
    (dynamicRotate 0 (BitVec.ofNat 32 s) none g hr (ix2 r c)) pad) ↔ _
  rw [iota_single_apply]
  show R z (if IntOp.cmpi .sge (BitVec.ofNat 32 r.val) (BitVec.ofNat 32 s) = 1 then _ else pad) ↔ _
  by_cases h : s ≤ r.val
  · rw [if_pos ((sge_small r.val s r.isLt hs).2 h)]
    have hk := dynamicRotate_apply (0 : Fin Img.rank) (BitVec.ofNat 32 s) g hr (ix2 r c) (ix2 ⟨r.val - s, by omega⟩ c)
      (fun b => match b with
        | ⟨0, _⟩ => by
          show r.val - s = (r.val + 1024 - (BitVec.ofNat 32 s).toNat % 1024) % 1024
          rw [toNat_ofNat_small s hs]; omega
        | ⟨1, _⟩ => rfl)
    rw [hk]
    constructor
    · intro h' r' hr'
      have : r' = ⟨r.val - s, by omega⟩ := Fin.ext (by show r'.val = r.val - s; omega)
      rw [this]; exact h'
    · intro h'; exact h' _ (by show r.val - s + s = r.val; omega)
  · rw [if_neg (fun e => h ((sge_small r.val s r.isLt hs).1 e))]
    exact ⟨fun _ r' hr' => absurd hr' (by omega), fun _ => M.unit z⟩

/-- The tap `o` rows forward. -/
theorem tapFwdRow_iff (pad : α) (hpad : pad = v) (n o : Nat) (hn : n + o = 1024) (ho : 0 < o) (g : Img.Idx → α)
    (hr : Img.Rotates 0 none) (hi : Img.Iotas .tc 32 [0]) (r c : Fin 1024) (z : α) :
    R z (tapFwdRow pad (BitVec.ofNat 32 n) g hr hi (ix2 r c)) ↔ ∀ r' : Fin 1024, r'.val = r.val + o → R z (g (ix2 r' c)) := by
  subst hpad
  have hn' : n < 1024 := by omega
  show R z (Scalar.select (IntOp.cmpi .slt (iota .tc Img 32 [0] hi (ix2 r c)) (BitVec.ofNat 32 n))
    (dynamicRotate 0 (BitVec.ofNat 32 n) none g hr (ix2 r c)) pad) ↔ _
  rw [iota_single_apply]
  show R z (if IntOp.cmpi .slt (BitVec.ofNat 32 r.val) (BitVec.ofNat 32 n) = 1 then _ else pad) ↔ _
  by_cases h : r.val < n
  · rw [if_pos ((slt_small r.val n r.isLt hn').2 h)]
    have hk := dynamicRotate_apply (0 : Fin Img.rank) (BitVec.ofNat 32 n) g hr (ix2 r c) (ix2 ⟨r.val + o, by omega⟩ c)
      (fun b => match b with
        | ⟨0, _⟩ => by
          show r.val + o = (r.val + 1024 - (BitVec.ofNat 32 n).toNat % 1024) % 1024
          rw [toNat_ofNat_small n hn']; omega
        | ⟨1, _⟩ => rfl)
    rw [hk]
    constructor
    · intro h' r' hr'
      have : r' = ⟨r.val + o, by omega⟩ := Fin.ext hr'
      rw [this]; exact h'
    · intro h'; exact h' _ rfl
  · rw [if_neg (fun e => h ((slt_small r.val n r.isLt hn').1 e))]
    exact ⟨fun _ r' hr' => absurd r'.isLt (by omega), fun _ => M.unit z⟩

variable (op : (Img.Idx → α) → (Img.Idx → α) → (Img.Idx → α)) (hop : ∀ a b i, op a b i = f (a i) (b i))
include hop

/-- The pass over columns c-2 … c+1. -/
theorem erodeCols_iff (pad : α) (hpad : pad = v) (g : Img.Idx → α) (hr : Img.Rotates 1 none) (hi : Img.Iotas .tc 32 [1])
    (r c : Fin 1024) (z : α) :
    R z (erodeCols op pad g hr hi (ix2 r c)) ↔ ∀ c' : Fin 1024, c.val ≤ c'.val + 2 → c'.val + 2 < c.val + 4 → R z (g (ix2 r c')) := by
  unfold erodeCols
  rw [hop, hop, hop, M.split, M.split, M.split,
    tapBackCol_iff M pad hpad 2 (by omega), tapBackCol_iff M pad hpad 1 (by omega), tapFwdCol_iff M pad hpad 1023 1 rfl (by omega)]
  constructor
  · rintro ⟨⟨⟨h2, h1⟩, h0⟩, hf⟩ c' ha hb
    rcases (by omega : c'.val + 2 = c.val ∨ c'.val + 1 = c.val ∨ c'.val = c.val ∨ c'.val = c.val + 1) with e | e | e | e
    · exact h2 c' e
    · exact h1 c' e
    · rw [show c' = c from Fin.ext e]; exact h0
    · exact hf c' e
  · intro H
    exact ⟨⟨⟨fun c' e => H c' (by omega) (by omega), fun c' e => H c' (by omega) (by omega)⟩, H c (by omega) (by omega)⟩,
      fun c' e => H c' (by omega) (by omega)⟩

/-- The pass over rows r-2 … r+1. -/
theorem erodeRows_iff (pad : α) (hpad : pad = v) (g : Img.Idx → α) (hr : Img.Rotates 0 none) (hi : Img.Iotas .tc 32 [0])
    (r c : Fin 1024) (z : α) :
    R z (erodeRows op pad g hr hi (ix2 r c)) ↔ ∀ r' : Fin 1024, r.val ≤ r'.val + 2 → r'.val + 2 < r.val + 4 → R z (g (ix2 r' c)) := by
  unfold erodeRows
  rw [hop, hop, hop, M.split, M.split, M.split,
    tapBackRow_iff M pad hpad 2 (by omega), tapBackRow_iff M pad hpad 1 (by omega), tapFwdRow_iff M pad hpad 1023 1 rfl (by omega)]
  constructor
  · rintro ⟨⟨⟨h2, h1⟩, h0⟩, hf⟩ r' ha hb
    rcases (by omega : r'.val + 2 = r.val ∨ r'.val + 1 = r.val ∨ r'.val = r.val ∨ r'.val = r.val + 1) with e | e | e | e
    · exact h2 r' e
    · exact h1 r' e
    · rw [show r' = r from Fin.ext e]; exact h0
    · exact hf r' e
  · intro H
    exact ⟨⟨⟨fun r' e => H r' (by omega) (by omega), fun r' e => H r' (by omega) (by omega)⟩, H r (by omega) (by omega)⟩,
      fun r' e => H r' (by omega) (by omega)⟩

/-- The pass over columns c-1 … c+2. -/
theorem dilateCols_iff (pad : α) (hpad : pad = v) (g : Img.Idx → α) (hr : Img.Rotates 1 none) (hi : Img.Iotas .tc 32 [1])
    (r c : Fin 1024) (z : α) :
    R z (dilateCols op pad g hr hi (ix2 r c)) ↔ ∀ c' : Fin 1024, c.val ≤ c'.val + 1 → c'.val + 1 < c.val + 4 → R z (g (ix2 r c')) := by
  unfold dilateCols
  rw [hop, hop, hop, M.split, M.split, M.split,
    tapBackCol_iff M pad hpad 1 (by omega), tapFwdCol_iff M pad hpad 1023 1 rfl (by omega), tapFwdCol_iff M pad hpad 1022 2 rfl (by omega)]
  constructor
  · rintro ⟨⟨⟨h1, h0⟩, hf1⟩, hf2⟩ c' ha hb
    rcases (by omega : c'.val + 1 = c.val ∨ c'.val = c.val ∨ c'.val = c.val + 1 ∨ c'.val = c.val + 2) with e | e | e | e
    · exact h1 c' e
    · rw [show c' = c from Fin.ext e]; exact h0
    · exact hf1 c' e
    · exact hf2 c' e
  · intro H
    exact ⟨⟨⟨fun c' e => H c' (by omega) (by omega), H c (by omega) (by omega)⟩, fun c' e => H c' (by omega) (by omega)⟩,
      fun c' e => H c' (by omega) (by omega)⟩

/-- The pass over rows r-1 … r+2. -/
theorem dilateRows_iff (pad : α) (hpad : pad = v) (g : Img.Idx → α) (hr : Img.Rotates 0 none) (hi : Img.Iotas .tc 32 [0])
    (r c : Fin 1024) (z : α) :
    R z (dilateRows op pad g hr hi (ix2 r c)) ↔ ∀ r' : Fin 1024, r.val ≤ r'.val + 1 → r'.val + 1 < r.val + 4 → R z (g (ix2 r' c)) := by
  unfold dilateRows
  rw [hop, hop, hop, M.split, M.split, M.split,
    tapBackRow_iff M pad hpad 1 (by omega), tapFwdRow_iff M pad hpad 1023 1 rfl (by omega), tapFwdRow_iff M pad hpad 1022 2 rfl (by omega)]
  constructor
  · rintro ⟨⟨⟨h1, h0⟩, hf1⟩, hf2⟩ r' ha hb
    rcases (by omega : r'.val + 1 = r.val ∨ r'.val = r.val ∨ r'.val = r.val + 1 ∨ r'.val = r.val + 2) with e | e | e | e
    · exact h1 r' e
    · rw [show r' = r from Fin.ext e]; exact h0
    · exact hf1 r' e
    · exact hf2 r' e
  · intro H
    exact ⟨⟨⟨fun r' e => H r' (by omega) (by omega), H r (by omega) (by omega)⟩, fun r' e => H r' (by omega) (by omega)⟩,
      fun r' e => H r' (by omega) (by omega)⟩

/-- Columns then rows: the 4 × 4 window reaching two back and one forward. -/
theorem erode_iff (pad : α) (hpad : pad = v) (g : Img.Idx → α) (hr1 : Img.Rotates 1 none) (hi1 : Img.Iotas .tc 32 [1])
    (hr0 : Img.Rotates 0 none) (hi0 : Img.Iotas .tc 32 [0]) (r c : Fin 1024) (z : α) :
    R z (erodeRows op pad (erodeCols op pad g hr1 hi1) hr0 hi0 (ix2 r c))
      ↔ ∀ r' c' : Fin 1024, r.val ≤ r'.val + 2 → r'.val + 2 < r.val + 4 → c.val ≤ c'.val + 2 → c'.val + 2 < c.val + 4 → R z (g (ix2 r' c')) := by
  rw [erodeRows_iff M op hop pad hpad]
  constructor
  · intro H r' c' a b
    exact (erodeCols_iff M op hop pad hpad g hr1 hi1 r' c z).1 (H r' a b) c'
  · intro H r' a b
    exact (erodeCols_iff M op hop pad hpad g hr1 hi1 r' c z).2 (fun c' => H r' c' a b)

/-- Columns then rows: the 4 × 4 window reaching one back and two forward. -/
theorem dilate_iff (pad : α) (hpad : pad = v) (g : Img.Idx → α) (hr1 : Img.Rotates 1 none) (hi1 : Img.Iotas .tc 32 [1])
    (hr0 : Img.Rotates 0 none) (hi0 : Img.Iotas .tc 32 [0]) (r c : Fin 1024) (z : α) :
    R z (dilateRows op pad (dilateCols op pad g hr1 hi1) hr0 hi0 (ix2 r c))
      ↔ ∀ r' c' : Fin 1024, r.val ≤ r'.val + 1 → r'.val + 1 < r.val + 4 → c.val ≤ c'.val + 1 → c'.val + 1 < c.val + 4 → R z (g (ix2 r' c')) := by
  rw [dilateRows_iff M op hop pad hpad]
  constructor
  · intro H r' c' a b
    exact (dilateCols_iff M op hop pad hpad g hr1 hi1 r' c z).1 (H r' a b) c'
  · intro H r' a b
    exact (dilateCols_iff M op hop pad hpad g hr1 hi1 r' c z).2 (fun c' => H r' c' a b)

end Read

end Cert.Taps
-- ==== Proof.Opening.lean ====
/-
  The two-pass window of a slice of a stack is the stack's 1 × 4 × 4 window reduction.

  For a stack of 32 images, the 4 × 4 window built from a pass along the columns and a pass along the rows of
  image `b` is, at (r, c), the window reduction of the whole stack at (b, r, c) with window extents (1, 4, 4)
  and unit strides: both are related to `z` exactly when every entry (b, r', c') of the stack with r' and c' in
  the window is. The window that reaches two back and one forward has low padding (0, 2, 2), the window that
  reaches one back and two forward has low padding (0, 1, 1). Applying the first to the stack and the second
  to its result gives the morphological opening, slice by slice.
-/
import proofs.«136369_j90984587199189_1_alg».proof.Proof.Taps

namespace Cert.Opening

open Idealize.ShloMosaic Idealize.ShloMosaic.ValueIdx Idealize.ShloMosaic.WindowFold Cert.Taps

/-- The stack's shape. -/
abbrev Stack : Shape := ⟨3, ![32, 1024, 1024]⟩

/-- Image `b` of a stack. -/
def slice {α : Type} (X : Stack.Idx → α) (b : Fin 32) : Img.Idx → α := fun i => X (ix3 b (i 0) (i 1))

theorem slice_apply {α : Type} (X : Stack.Idx → α) (b : Fin 32) (r c : Fin 1024) : slice X b (ix2 r c) = X (ix3 b r c) := rfl

section
variable {α : Type} {R : α → α → Prop} {f : α → α → α} {v : α} (M : Meet R f v)
variable (op : (Img.Idx → α) → (Img.Idx → α) → (Img.Idx → α)) (hop : ∀ a b i, op a b i = f (a i) (b i))
include M hop

/-- Two back, one forward: low padding 2 on both image axes. -/
theorem erode_eq (pad : α) (hpad : pad = v) (X : Stack.Idx → α) {u : Shape} (init : u.Idx → α)
    (hw : Stack.ReduceWindows ![1, 4, 4] ![1, 1, 1] ![0, 2, 2] ![0, 1, 1] Stack) (hu : 0 < u.numel)
    (hinit : init (Shape.Idx.first hu) = v)
    (hr1 : Img.Rotates 1 none) (hi1 : Img.Iotas .tc 32 [1]) (hr0 : Img.Rotates 0 none) (hi0 : Img.Iotas .tc 32 [0])
    (b : Fin 32) (r c : Fin 1024) :
    erodeRows op pad (erodeCols op pad (slice X b) hr1 hi1) hr0 hi0 (ix2 r c)
      = Host.reduceWindow f ![1, 4, 4] ![1, 1, 1] ![0, 2, 2] ![0, 1, 1] X init hw hu (ix3 b r c) := by
  refine M.ext _ _ fun z => ?_
  rw [erode_iff M op hop pad hpad,
    reduceWindow_iff M _ _ _ _ X init hw hu hinit (fun a => match a with | ⟨0, _⟩ => rfl | ⟨1, _⟩ => rfl | ⟨2, _⟩ => rfl)]
  constructor
  · intro H k hk
    have h0 : b.val ≤ (k 0).val + 0 ∧ (k 0).val + 0 < b.val + 1 := hk 0
    have h1 : r.val ≤ (k 1).val + 2 ∧ (k 1).val + 2 < r.val + 4 := hk 1
    have h2 : c.val ≤ (k 2).val + 2 ∧ (k 2).val + 2 < c.val + 4 := hk 2
    have hb : (k 0 : Fin 32) = b := Fin.ext (by omega)
    have e : k = ix3 b (k 1) (k 2) := (eq_ix3 k).trans (congrArg (fun x : Fin 32 => ix3 x (k 1) (k 2)) hb)
    rw [e]
    exact H (k 1) (k 2) h1.1 h1.2 h2.1 h2.2
  · intro H r' c' a1 a2 a3 a4
    exact H (ix3 b r' c') (fun a => match a with
      | ⟨0, _⟩ => (⟨by show b.val ≤ b.val + 0; omega, by show b.val + 0 < b.val + 1; omega⟩ : _ ∧ _)
      | ⟨1, _⟩ => ⟨a1, a2⟩
      | ⟨2, _⟩ => ⟨a3, a4⟩)

/-- One back, two forward: low padding 1 on both image axes. -/
theorem dilate_eq (pad : α) (hpad : pad = v) (X : Stack.Idx → α) {u : Shape} (init : u.Idx → α)
    (hw : Stack.ReduceWindows ![1, 4, 4] ![1, 1, 1] ![0, 1, 1] ![0, 2, 2] Stack) (hu : 0 < u.numel)
    (hinit : init (Shape.Idx.first hu) = v)
    (hr1 : Img.Rotates 1 none) (hi1 : Img.Iotas .tc 32 [1]) (hr0 : Img.Rotates 0 none) (hi0 : Img.Iotas .tc 32 [0])
    (b : Fin 32) (r c : Fin 1024) :
    dilateRows op pad (dilateCols op pad (slice X b) hr1 hi1) hr0 hi0 (ix2 r c)
      = Host.reduceWindow f ![1, 4, 4] ![1, 1, 1] ![0, 1, 1] ![0, 2, 2] X init hw hu (ix3 b r c) := by
  refine M.ext _ _ fun z => ?_
  rw [dilate_iff M op hop pad hpad,
    reduceWindow_iff M _ _ _ _ X init hw hu hinit (fun a => match a with | ⟨0, _⟩ => rfl | ⟨1, _⟩ => rfl | ⟨2, _⟩ => rfl)]
  constructor
  · intro H k hk
    have h0 : b.val ≤ (k 0).val + 0 ∧ (k 0).val + 0 < b.val + 1 := hk 0
    have h1 : r.val ≤ (k 1).val + 1 ∧ (k 1).val + 1 < r.val + 4 := hk 1
    have h2 : c.val ≤ (k 2).val + 1 ∧ (k 2).val + 1 < c.val + 4 := hk 2
    have hb : (k 0 : Fin 32) = b := Fin.ext (by omega)
    have e : k = ix3 b (k 1) (k 2) := (eq_ix3 k).trans (congrArg (fun x : Fin 32 => ix3 x (k 1) (k 2)) hb)
    rw [e]
    exact H (k 1) (k 2) h1.1 h1.2 h2.1 h2.2
  · intro H r' c' a1 a2 a3 a4
    exact H (ix3 b r' c') (fun a => match a with
      | ⟨0, _⟩ => (⟨by show b.val ≤ b.val + 0; omega, by show b.val + 0 < b.val + 1; omega⟩ : _ ∧ _)
      | ⟨1, _⟩ => ⟨a1, a2⟩
      | ⟨2, _⟩ => ⟨a3, a4⟩)

end

/-- The opening of a slice is the slice of the stack's two window reductions: the erosion by one meet, then the
    dilation by another. -/
theorem opening_eq {α : Type} {R R' : α → α → Prop} {f f' : α → α → α} {v v' : α} (M : Meet R f v) (M' : Meet R' f' v')
    (op op' : (Img.Idx → α) → (Img.Idx → α) → (Img.Idx → α)) (hop : ∀ a b i, op a b i = f (a i) (b i))
    (hop' : ∀ a b i, op' a b i = f' (a i) (b i)) (pad pad' : α) (hpad : pad = v) (hpad' : pad' = v')
    (X : Stack.Idx → α) {u u' : Shape} (init : u.Idx → α) (init' : u'.Idx → α)
    (hw : Stack.ReduceWindows ![1, 4, 4] ![1, 1, 1] ![0, 2, 2] ![0, 1, 1] Stack) (hu : 0 < u.numel)
    (hw' : Stack.ReduceWindows ![1, 4, 4] ![1, 1, 1] ![0, 1, 1] ![0, 2, 2] Stack) (hu' : 0 < u'.numel)
    (hinit : init (Shape.Idx.first hu) = v) (hinit' : init' (Shape.Idx.first hu') = v')
    (hr1 : Img.Rotates 1 none) (hi1 : Img.Iotas .tc 32 [1]) (hr0 : Img.Rotates 0 none) (hi0 : Img.Iotas .tc 32 [0])
    (b : Fin 32) (r c : Fin 1024) :
    dilateRows op' pad' (dilateCols op' pad' (erodeRows op pad (erodeCols op pad (slice X b) hr1 hi1) hr0 hi0) hr1 hi1) hr0 hi0 (ix2 r c)
      = Host.reduceWindow f' ![1, 4, 4] ![1, 1, 1] ![0, 1, 1] ![0, 2, 2]
          (Host.reduceWindow f ![1, 4, 4] ![1, 1, 1] ![0, 2, 2] ![0, 1, 1] X init hw hu) init' hw' hu' (ix3 b r c) := by
  have hE : erodeRows op pad (erodeCols op pad (slice X b) hr1 hi1) hr0 hi0
      = slice (Host.reduceWindow f ![1, 4, 4] ![1, 1, 1] ![0, 2, 2] ![0, 1, 1] X init hw hu) b := by
    funext i
    obtain ⟨p, q, rfl⟩ : ∃ (p : Fin 1024) (q : Fin 1024), i = ix2 p q := ⟨i 0, i 1, eq_ix2 i⟩
    rw [slice_apply]
    exact erode_eq M op hop pad hpad X init hw hu hinit hr1 hi1 hr0 hi0 b p q
  rw [hE]
  exact dilate_eq M' op' hop' pad' hpad' _ init' hw' hu' hinit' hr1 hi1 hr0 hi0 b r c

/-! ## The two results as functions of the arguments -/

section Spec
variable {F : FTy → Type} [FloatOps F]

/-- The shape of a reduction's initial value. -/
abbrev Scal : Shape := ⟨0, ![]⟩

/-- A value at or above one half is kept, any other becomes zero. -/
def keep (a : F .f32) : F .f32 :=
  Scalar.select (FloatOps.cmpf .oge a (FloatOps.ofBits .f32 0x3F000000#32)) a (FloatOps.ofBits .f32 0x00000000#32)

/-- The threshold, entry by entry. -/
def keepAll {s : Shape} (x : s.Idx → F .f32) : s.Idx → F .f32 := fun i => keep (x i)

/-- The opening of the thresholded stack: the 1 × 4 × 4 minimum reaching two back and one forward, padded with +∞,
    then the 1 × 4 × 4 maximum reaching one back and two forward, padded with -∞. -/
def opened (arr : Stack.Idx → F .f32) : Stack.Idx → F .f32 :=
  Host.reduceWindow (t := Stack) FloatOps.maximumf ![1, 4, 4] ![1, 1, 1] ![0, 1, 1] ![0, 2, 2]
    (Host.reduceWindow (t := Stack) FloatOps.minimumf ![1, 4, 4] ![1, 1, 1] ![0, 2, 2] ![0, 1, 1] (keepAll arr)
      (fun _ : Scal.Idx => FloatOps.ofBits .f32 0x7F800000#32) (by decide) (by decide))
    (fun _ : Scal.Idx => FloatOps.ofBits .f32 0xFF800000#32) (by decide) (by decide)

end Spec

/-- The word of +∞ is the top of the extended reals. -/
theorem posInf_eq : (FloatOps.ofBits (F := Ideal) .f32 0x7F800000#32 : EReal) = ⊤ := by
  show Ideal.ofBits .f32 0x7F800000#32 = ⊤
  simp [Ideal.ofBits, Ideal.ieee]

/-- The word of -∞ is the bottom. -/
theorem negInf_eq : (FloatOps.ofBits (F := Ideal) .f32 0xFF800000#32 : EReal) = ⊥ := by
  show Ideal.ofBits .f32 0xFF800000#32 = ⊥
  simp [Ideal.ofBits, Ideal.ieee]

/-- On the extended reals the four passes over image `b` of the thresholded stack, minima padded with +∞ then maxima
    padded with -∞, give the opening at (b, r, c). -/
theorem opened_slice (arr : Stack.Idx → Ideal .f32)
    (hr1 : Img.Rotates 1 none) (hi1 : Img.Iotas .tc 32 [1]) (hr0 : Img.Rotates 0 none) (hi0 : Img.Iotas .tc 32 [0])
    (b : Fin 32) (r c : Fin 1024) :
    dilateRows (maximumf (F := Ideal) (s := Img) (φ := .f32)) (FloatOps.ofBits (F := Ideal) .f32 0xFF800000#32)
      (dilateCols (maximumf (F := Ideal) (s := Img) (φ := .f32)) (FloatOps.ofBits (F := Ideal) .f32 0xFF800000#32)
        (erodeRows (minimumf (F := Ideal) (s := Img) (φ := .f32)) (FloatOps.ofBits (F := Ideal) .f32 0x7F800000#32)
          (erodeCols (minimumf (F := Ideal) (s := Img) (φ := .f32)) (FloatOps.ofBits (F := Ideal) .f32 0x7F800000#32)
            (slice (keepAll arr) b) hr1 hi1) hr0 hi0) hr1 hi1) hr0 hi0 (ix2 r c)
      = opened arr (ix3 b r c) := by
  unfold opened
  exact opening_eq (α := EReal) meet_min meet_max (minimumf (F := Ideal) (s := Img) (φ := .f32)) (maximumf (F := Ideal) (s := Img) (φ := .f32))
    (fun _ _ _ => rfl) (fun _ _ _ => rfl) _ _ posInf_eq negInf_eq (keepAll arr)
    (fun _ : Scal.Idx => FloatOps.ofBits (F := Ideal) .f32 0x7F800000#32) (fun _ : Scal.Idx => FloatOps.ofBits (F := Ideal) .f32 0xFF800000#32)
    _ _ _ _ posInf_eq negInf_eq hr1 hi1 hr0 hi0 b r c

end Cert.Opening
-- ==== Proof.ScoreValue.lean ====
/-
  The first result array after the run: the thresholded scores.

  The first region has one grid point, whose blocks are the whole 32 × 1000 arrays. Its body stores, entry by
  entry, the score where it is at least one half and zero elsewhere; so what the point writes back is the block of
  that function of the score array, the one block covers the array, and the array ends holding the function.
-/
import proofs.«136369_j90984587199189_1_alg».proof.Proof.Gen.KernelIdeal.Frame
import proofs.«136369_j90984587199189_1_alg».proof.Proof.Opening
import Idealize.ShloMosaic.Lib.Pipeline.Value

set_option maxRecDepth 16384

noncomputable section

namespace Cert.KernelIdeal.ScoreValue

open Cert.KernelIdeal Cert.KernelIdeal.Gen Cert.Opening
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem offsets_zero : (![0, 0] : Fin 2 → Nat) = fun _ => 0 := funext fun a => by fin_cases a <;> rfl

/-- What the body stores is the threshold of what it loads, entry by entry. -/
theorem stored_eq (x : Vec F S32x1000 .f32) : k0_pay1 x = keepAll x := rfl

/-- Both windows sit at block (0, 0) at the one grid point. -/
theorem index_facts : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- What the point writes back is its block of the thresholded score array. -/
theorem flushed_eq (c : Dev nD) (t : Fin cfg0.N) :
    (dat0 V c).flushed 1 t = ((cfg0.win 1).blk t).view.read (Elt F) (keepAll (s := S32x1000) (V c main_arg0)) := by
  show (cfg0.win 1).cut (grid0.coords t) ((dat0 V c).after 1 t) = _
  rw [after0_1]
  unfold out0_1
  rw [View.canon_unit_zero offsets_zero]
  simp only [View.ld_unit_zero (S := S32x1000) offsets_zero]
  rw [stored_eq]
  obtain ⟨e0, e1, e2, e3⟩ := index_facts t
  funext j
  show keep (V c main_arg0 (((cfg0.win 0).blk t).view.emb j)) = keep (V c main_arg0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 32 + 1 * (j 0).val = win0_1.index t (0 : Fin 2) * 32 + 1 * (j 0).val; omega
    | ⟨1, _⟩ => show win0_0.index t (1 : Fin 2) * 1000 + 1 * (j 1).val = win0_1.index t (1 : Fin 2) * 1000 + 1 * (j 1).val; omega
  rw [h0]

/-- An index of the array is in the point's block iff each coordinate is in the block's range. -/
theorem mem_block (t : Fin cfg0.N) (i : S32x1000.Idx) :
    i ∈ ((cfg0.win 1).blk t).view.set ↔ ∀ a : Fin 2, win0_1.index t a * S32x1000.size a ≤ (i a).val ∧ (i a).val < win0_1.index t a * S32x1000.size a + S32x1000.size a := by
  show i ∈ ((View.whole main_v0).slice (win0_1.rect t)).set ↔ _
  rw [View.set_slice_whole, Rect.mem_set_unit]
  exact Iff.rfl

/-- The one block covers the array. -/
theorem covered (i : S32x1000.Idx) : ∃ t : Fin cfg0.N, (cfg0.win 1).flush t = true ∧ i ∈ ((cfg0.win 1).blk t).view.set := by
  refine ⟨⟨0, by decide⟩, flush0_1 _, ?_⟩
  rw [mem_block]
  obtain ⟨e0, e1, e2, e3⟩ := index_facts ⟨0, by decide⟩
  have hi0 : (i 0).val < 32 := (i 0).isLt
  have hi1 : (i 1).val < 1000 := (i 1).isLt
  intro a
  match a with
  | ⟨0, _⟩ => show win0_1.index _ (0 : Fin 2) * 32 ≤ (i 0).val ∧ (i 0).val < win0_1.index _ (0 : Fin 2) * 32 + 32; omega
  | ⟨1, _⟩ => show win0_1.index _ (1 : Fin 2) * 1000 ≤ (i 1).val ∧ (i 1).val < win0_1.index _ (1 : Fin 2) * 1000 + 1000; omega

/-- The array after the region's write-backs is the thresholded score array. -/
theorem final (c : Dev nD) : (dat0 V c).arrAt 1 cfg0.N = keepAll (s := S32x1000) (V c main_arg0) :=
  (dat0 V c).arrAt_eq_of_cover 1 _ (fun t _ => flushed_eq V c t) covered

end Cert.KernelIdeal.ScoreValue

end
-- ==== Proof.MaskValue.lean ====
/-
  The second result array after the run: the opening of the thresholded masks.

  The second region has one grid point per image: point `t` loads image `t` of the 32 × 1024 × 1024 mask array as a
  1 × 1024 × 1024 block and stores a block of the same shape. Its body drops the unit axis, thresholds, takes the
  minimum over columns c-2 … c+1 and then over rows r-2 … r+1 (neighbours outside the image count as +∞), then the
  maximum over columns c-1 … c+2 and rows r-1 … r+2 (outside: -∞), and puts the unit axis back. On the extended reals
  that is image `t` of the opening of the whole thresholded stack; the 32 blocks tile the array, so the array ends
  holding the opening.
-/
import proofs.«136369_j90984587199189_1_alg».proof.Proof.Gen.KernelIdeal.Frame
import proofs.«136369_j90984587199189_1_alg».proof.Proof.Opening
import Idealize.ShloMosaic.Lib.Pipeline.Value

set_option maxRecDepth 16384

noncomputable section

namespace Cert.KernelIdeal.MaskValue

open Cert.KernelIdeal Cert.KernelIdeal.Gen Cert.Opening Cert.Taps
open Idealize.ShloMosaic Idealize.ShloMosaic.TcCoe Idealize.ShloMosaic.ValueIdx Idealize.SL.Sem
open Idealize.ShloMosaic.Pipeline (Dat Cfg Window)

section Body
variable {F : FTy → Type} [FloatOps F]

/-- The body's stored value as the four passes over the thresholded image, between the two changes of shape. -/
theorem stored_eq (x : Vec F S1x1024x1024 .f32) :
    k1_pay1 (k1_pay5 (k1_pay2 x) (k1_pay3 x) (k1_pay4 x)) (k1_pay6 (k1_pay2 x) (k1_pay3 x) (k1_pay4 x))
        (k1_pay7 (k1_pay2 x) (k1_pay3 x) (k1_pay4 x)) k1_pay8 (k1_pay9 (F := F))
      = shapeCast S1x1024x1024
          (dilateRows (maximumf (F := F) (s := Img) (φ := .f32)) (FloatOps.ofBits (F := F) .f32 0xFF800000#32)
            (dilateCols (maximumf (F := F) (s := Img) (φ := .f32)) (FloatOps.ofBits (F := F) .f32 0xFF800000#32)
              (erodeRows (minimumf (F := F) (s := Img) (φ := .f32)) (FloatOps.ofBits (F := F) .f32 0x7F800000#32)
                (erodeCols (minimumf (F := F) (s := Img) (φ := .f32)) (FloatOps.ofBits (F := F) .f32 0x7F800000#32)
                  (keepAll (shapeCast S1024x1024 x shapeCasts_S1x1024x1024_S1024x1024))
                  rotates_S1024x1024_d1 iota_S1024x1024_d1_w32)
                rotates_S1024x1024_d0 iota_S1024x1024_d0_w32)
              rotates_S1024x1024_d1 iota_S1024x1024_d1_w32)
            rotates_S1024x1024_d0 iota_S1024x1024_d0_w32)
          shapeCasts_S1024x1024_S1x1024x1024 := rfl

end Body

/-- At the extended reals: if the loaded block is image `b` of the stack, the stored block is image `b` of the
    stack's opening. -/
theorem stored_at (arr : Stack.Idx → Ideal .f32) (b : Fin 32) (x : Vec Ideal S1x1024x1024 .f32)
    (hx : ∀ p q : Fin 1024, x (ix3 (0 : Fin 1) p q) = arr (ix3 b p q)) (y : S1x1024x1024.Idx) :
    k1_pay1 (k1_pay5 (k1_pay2 x) (k1_pay3 x) (k1_pay4 x)) (k1_pay6 (k1_pay2 x) (k1_pay3 x) (k1_pay4 x))
        (k1_pay7 (k1_pay2 x) (k1_pay3 x) (k1_pay4 x)) k1_pay8 (k1_pay9 (F := Ideal)) y
      = opened arr (ix3 b (y 1) (y 2)) := by
  rw [stored_eq]
  obtain ⟨y0, r, c, rfl⟩ : ∃ (y0 : Fin 1) (r c : Fin 1024), y = ix3 y0 r c := ⟨y 0, y 1, y 2, eq_ix3 y⟩
  refine (shapeCast_addUnit_apply _ _ _ _).trans ?_
  have hy : (fun a : Fin 2 => (ix3 y0 r c) a.succ) = ix2 r c := funext fun a => match a with | ⟨0, _⟩ => rfl | ⟨1, _⟩ => rfl
  rw [hy]
  have hs : keepAll (shapeCast S1024x1024 x shapeCasts_S1x1024x1024_S1024x1024) = slice (keepAll arr) b := by
    funext i
    obtain ⟨p, q, rfl⟩ : ∃ (p : Fin 1024) (q : Fin 1024), i = ix2 p q := ⟨i 0, i 1, eq_ix2 i⟩
    show keep (shapeCast S1024x1024 x shapeCasts_S1x1024x1024_S1024x1024 (ix2 p q)) = keep (arr (ix3 b p q))
    refine congrArg keep ?_
    refine (shapeCast_dropUnit_apply _ _ _ _).trans ?_
    rw [← hx p q]
    refine congrArg x (funext fun a => ?_)
    match a with | ⟨0, _⟩ => rfl | ⟨1, _⟩ => rfl | ⟨2, _⟩ => rfl
  rw [hs]
  exact opened_slice arr _ _ _ _ b r c

variable (V : (c : Dev nD) → (b : Ref sig .tc) → Buf (Elt Ideal) ((c : Thread nD τ).loc b))

theorem offsets_zero : (![0, 0, 0] : Fin 3 → Nat) = fun _ => 0 := funext fun a => by fin_cases a <;> rfl

/-- At point `t` both windows sit at block (t, 0, 0). -/
theorem index_facts : ∀ t : Fin cfg1.N, win1_0.index t (0 : Fin 3) = t.val ∧ win1_0.index t (1 : Fin 3) = 0
    ∧ win1_0.index t (2 : Fin 3) = 0 ∧ win1_1.index t (0 : Fin 3) = t.val ∧ win1_1.index t (1 : Fin 3) = 0
    ∧ win1_1.index t (2 : Fin 3) = 0 :=
  (by decide +kernel : ∀ t : Fin grid1.N, _)

/-- Point `t`'s output block of any array `G`, read at a block index, is `G` at image `t`. -/
theorem read_out_block (G : S32x1024x1024.Idx → Ideal .f32) (t : Fin cfg1.N) (ht : t.val < 32) (y : S1x1024x1024.Idx) :
    ((cfg1.win 1).blk t).view.read (Elt Ideal) G y = G (ix3 ⟨t.val, ht⟩ (y 1) (y 2)) := by
  obtain ⟨e0, e1, e2, e3, e4, e5⟩ := index_facts t
  show G (((cfg1.win 1).blk t).view.emb y) = G (ix3 ⟨t.val, ht⟩ (y 1) (y 2))
  refine congrArg G (funext fun a => Fin.ext ?_)
  have hy0 : (y 0).val < 1 := (y 0).isLt
  match a with
  | ⟨0, _⟩ => show win1_1.index t (0 : Fin 3) * 1 + 1 * (y 0).val = t.val; omega
  | ⟨1, _⟩ => show win1_1.index t (1 : Fin 3) * 1024 + 1 * (y 1).val = (y 1).val; omega
  | ⟨2, _⟩ => show win1_1.index t (2 : Fin 3) * 1024 + 1 * (y 2).val = (y 2).val; omega

/-- Point `t`'s input block, read at (0, p, q), is the mask array at (t, p, q). -/
theorem read_in_block (c : Dev nD) (t : Fin cfg1.N) (ht : t.val < 32) (p q : Fin 1024) :
    iblk1 V c 0 t (ix3 (0 : Fin 1) p q) = V c main_arg1 (ix3 ⟨t.val, ht⟩ p q) := by
  obtain ⟨e0, e1, e2, e3, e4, e5⟩ := index_facts t
  show V c main_arg1 (((cfg1.win 0).blk t).view.emb (ix3 (0 : Fin 1) p q)) = V c main_arg1 (ix3 ⟨t.val, ht⟩ p q)
  refine congrArg _ (funext fun a => Fin.ext ?_)
  match a with
  | ⟨0, _⟩ => show win1_0.index t (0 : Fin 3) * 1 + 1 * 0 = t.val; omega
  | ⟨1, _⟩ => show win1_0.index t (1 : Fin 3) * 1024 + 1 * p.val = p.val; omega
  | ⟨2, _⟩ => show win1_0.index t (2 : Fin 3) * 1024 + 1 * q.val = q.val; omega

/-- What point `t` writes back is its block of the opening of the mask array. -/
theorem flushed_eq (c : Dev nD) (t : Fin cfg1.N) :
    (dat1 V c).flushed 1 t = ((cfg1.win 1).blk t).view.read (Elt Ideal) (opened (F := Ideal) (V c main_arg1)) := by
  show (cfg1.win 1).cut (grid1.coords t) ((dat1 V c).after 1 t) = _
  rw [after1_1]
  unfold out1_1
  rw [View.canon_unit_zero offsets_zero]
  simp only [View.ld_unit_zero (S := S1x1024x1024) offsets_zero]
  have ht : t.val < 32 := t.isLt
  funext y
  exact (stored_at (V c main_arg1) ⟨t.val, ht⟩ (iblk1 V c 0 t) (fun p q => read_in_block V c t ht p q) y).trans
    (read_out_block (opened (F := Ideal) (V c main_arg1)) t ht y).symm

/-- An index of the array is in point `t`'s block iff each coordinate is in the block's range. -/
theorem mem_block (t : Fin cfg1.N) (i : S32x1024x1024.Idx) :
    i ∈ ((cfg1.win 1).blk t).view.set ↔ ∀ a : Fin 3, win1_1.index t a * S1x1024x1024.size a ≤ (i a).val ∧ (i a).val < win1_1.index t a * S1x1024x1024.size a + S1x1024x1024.size a := by
  show i ∈ ((View.whole main_v1).slice (win1_1.rect t)).set ↔ _
  rw [View.set_slice_whole, Rect.mem_set_unit]
  exact Iff.rfl

/-- Entry (b, r, c) is in the block of point `b`. -/
theorem covered (i : S32x1024x1024.Idx) : ∃ t : Fin cfg1.N, (cfg1.win 1).flush t = true ∧ i ∈ ((cfg1.win 1).blk t).view.set := by
  have hi0 : (i 0).val < 32 := (i 0).isLt
  have hi1 : (i 1).val < 1024 := (i 1).isLt
  have hi2 : (i 2).val < 1024 := (i 2).isLt
  refine ⟨⟨(i 0).val, hi0⟩, flush1_1 _, ?_⟩
  rw [mem_block]
  obtain ⟨e0, e1, e2, e3, e4, e5⟩ := index_facts ⟨(i 0).val, hi0⟩
  have e3' : win1_1.index ⟨(i 0).val, hi0⟩ (0 : Fin 3) = (i 0).val := e3
  intro a
  match a with
  | ⟨0, _⟩ => show win1_1.index _ (0 : Fin 3) * 1 ≤ (i 0).val ∧ (i 0).val < win1_1.index _ (0 : Fin 3) * 1 + 1; omega
  | ⟨1, _⟩ => show win1_1.index _ (1 : Fin 3) * 1024 ≤ (i 1).val ∧ (i 1).val < win1_1.index _ (1 : Fin 3) * 1024 + 1024; omega
  | ⟨2, _⟩ => show win1_1.index _ (2 : Fin 3) * 1024 ≤ (i 2).val ∧ (i 2).val < win1_1.index _ (2 : Fin 3) * 1024 + 1024; omega

/-- The array after the region's write-backs is the opening of the mask array as the region found it. -/
theorem final (c : Dev nD) : (dat1 V c).arrAt 1 cfg1.N = opened (F := Ideal) (V c main_arg1) :=
  (dat1 V c).arrAt_eq_of_cover 1 _ (fun t _ => flushed_eq V c t) (covered)

end Cert.KernelIdeal.MaskValue

end
-- ==== Proof.Reference.lean ====
/-
  The reference's two results as functions of its arguments.

  The reference thresholds each argument by a comparison with a broadcast one half and a choice against a broadcast
  zero — entry by entry the same choice the specification makes — and then applies the two window reductions to the
  thresholded masks, each from a rank-zero initial value that is a broadcast constant: +∞ for the minimum, -∞ for the
  maximum. A window reduction reads its initial value only at its one index, so the result is the opening as
  specified.
-/
import proofs.«136369_j90984587199189_1_alg».proof.Proof.Gen.ReferenceIdeal.Run
import proofs.«136369_j90984587199189_1_alg».proof.Proof.Gen.ReferenceIdeal.Read
import proofs.«136369_j90984587199189_1_alg».proof.Proof.Opening

noncomputable section

namespace Cert.ReferenceIdeal.RefValue

open Cert.ReferenceIdeal Cert.ReferenceIdeal.Gen Cert.Opening Idealize.ShloMosaic Idealize.ShloMosaic.TcCoe

variable {F : FTy → Type} [FloatOps F]

/-- The thresholded scores. -/
theorem score_eq (x : (⟨S32x1000, .f32⟩ : BufTy).Contents (Elt F)) :
    select (cmpf .oge x (broadcastInDim S32x1000 ![] bcast_S_S32x1000 (constant S_ .f32 0x3F000000#32))) x
        (broadcastInDim S32x1000 ![] bcast_S_S32x1000 (constant S_ .f32 0x00000000#32))
      = keepAll (s := S32x1000) x := by
  funext i
  rfl

/-- The thresholded masks. -/
theorem masks_eq (x : (⟨S32x1024x1024, .f32⟩ : BufTy).Contents (Elt F)) :
    select (cmpf .oge x (broadcastInDim S32x1024x1024 ![] bcast_S_S32x1024x1024 (constant S_ .f32 0x3F000000#32))) x
        (broadcastInDim S32x1024x1024 ![] bcast_S_S32x1024x1024 (constant S_ .f32 0x00000000#32))
      = keepAll (s := S32x1024x1024) x := by
  funext i
  rfl

/-- The opening of the thresholded masks. -/
theorem opened_eq (x : (⟨S32x1024x1024, .f32⟩ : BufTy).Contents (Elt F)) :
    Host.reduceWindow FloatOps.maximumf ![1, 4, 4] ![1, 1, 1] ![0, 1, 1] ![0, 2, 2]
        (Host.reduceWindow FloatOps.minimumf ![1, 4, 4] ![1, 1, 1] ![0, 2, 2] ![0, 1, 1]
          (select (cmpf .oge x (broadcastInDim S32x1024x1024 ![] bcast_S_S32x1024x1024 (constant S_ .f32 0x3F000000#32))) x
            (broadcastInDim S32x1024x1024 ![] bcast_S_S32x1024x1024 (constant S_ .f32 0x00000000#32)))
          (broadcastInDim S_ ![] bcast_S_S_ (constant S_ .f32 0x7F800000#32))
          reduceWindows_S32x1024x1024_S32x1024x1024_w1s1p0_0_w4s1p2_1_w4s1p2_1 h_S_)
        (broadcastInDim S_ ![] bcast_S_S_ (constant S_ .f32 0xFF800000#32))
        reduceWindows_S32x1024x1024_S32x1024x1024_w1s1p0_0_w4s1p1_2_w4s1p1_2 h_S_
      = opened (F := F) x := by
  rw [masks_eq]
  rfl

end Cert.ReferenceIdeal.RefValue

end
-- ==== Proof.lean ====
/-
  A score threshold and a morphological opening of thresholded masks, computed by two kernels, against the plain
  array program.

  The first kernel keeps each score that is at least one half and zeroes the rest; the reference does the same with a
  comparison and a choice. The second kernel, one 1024 × 1024 image per grid point, thresholds the image the same way
  and then erodes and dilates it with a 4 × 4 window, each as a pass along the columns followed by a pass along the
  rows: four shifted copies of the image combined by minimum (neighbours c-2 … c+1, then r-2 … r+1, positions outside
  the image counting as +∞) and then by maximum (c-1 … c+2, then r-1 … r+2, outside counting as -∞). The reference
  applies to the whole stack a window minimum with extents (1, 4, 4) padded (2, 1) on the image axes from +∞, then a
  window maximum padded (1, 2) from -∞. On the extended reals minimum and maximum are the meet and join of a linear
  order with top +∞ and bottom -∞, so each side is characterised by the set of entries in its window and the two agree
  at every entry; no finiteness of the inputs is used. The idealisation rewrote nothing.

  The kernels' run with both result arrays named is the generated frame's launch called again (KernelRun); each
  result array's contents come from what every grid point writes back and the blocks' cover (ScoreValue, MaskValue);
  the window mathematics is in LibWindowFold, Taps and Opening; the reference's results are read off its generated
  run (Reference).
-/
import proofs.«136369_j90984587199189_1_alg».proof.Defs
import proofs.«136369_j90984587199189_1_alg».proof.Proof.Gen.Kernel
import proofs.«136369_j90984587199189_1_alg».proof.Proof.Gen.Kernel.Frame
import proofs.«136369_j90984587199189_1_alg».proof.Proof.Gen.KernelIdeal
import proofs.«136369_j90984587199189_1_alg».proof.Proof.Gen.KernelIdeal.Frame
import proofs.«136369_j90984587199189_1_alg».proof.Proof.Gen.ReferenceIdeal
import proofs.«136369_j90984587199189_1_alg».proof.Proof.Gen.ReferenceIdeal.Run
import proofs.«136369_j90984587199189_1_alg».proof.Proof.Gen.Pre_finite_inputs
import proofs.«136369_j90984587199189_1_alg».proof.Proof.KernelRun
import proofs.«136369_j90984587199189_1_alg».proof.Proof.ScoreValue
import proofs.«136369_j90984587199189_1_alg».proof.Proof.MaskValue
import proofs.«136369_j90984587199189_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the thresholded scores and the opening of the thresholded masks of the arguments they
    share. -/
theorem algebraic : Cert.algebraic_KernelIdeal_ReferenceIdeal := by
  intro m ρ m' ρ' _ hagree
  refine ⟨fun c => Cert.Opening.keepAll (F := Ideal) (s := Cert.KernelIdeal.S32x1000) (m ((c.tc : Thread Cert.KernelIdeal.nD Cert.KernelIdeal.τ).loc Cert.KernelIdeal.main_arg0)),
    fun c => Cert.Opening.opened (F := Ideal) (m ((c.tc : Thread Cert.KernelIdeal.nD Cert.KernelIdeal.τ).loc Cert.KernelIdeal.main_arg1)), ?_, ?_⟩
  · exact (θ_run Cert.KernelIdeal.defs _ _).mono (fun r h c =>
      ⟨(h c).1.trans (Cert.KernelIdeal.ScoreValue.final (Cert.KernelIdeal.Gen.V0 m ρ) c),
        (h c).2.1.trans ((Cert.KernelIdeal.MaskValue.final (Cert.KernelIdeal.Gen.V1 m ρ) c).trans
          (congrArg (Cert.Opening.opened (F := Ideal)) (Cert.KernelIdeal.Run.V1_main_arg1 m ρ c))),
        (h c).2.2⟩)
      (Cert.KernelIdeal.Run.run (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [(hagree c).1]; exact Cert.ReferenceIdeal.RefValue.score_eq _
    · rw [(hagree c).2]; exact Cert.ReferenceIdeal.RefValue.opened_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
